-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S32x1024 : Shape := ⟨2, ![32, 1024]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel
  bcast_S_S32x1024 : S_.BroadcastsInDim S32x1024 (![] : Fin 0 → Fin S32x1024.rank)
  reducesTo_S32x1024_S_d0_1 : S32x1024.ReducesTo [0, 1] S_

variable [Facts]

def fn {F : FTy → Type} [FloatOps F] (main_arg0 : FVec F S32x3x512x512 .f32) (main_arg1 : IVec S32x1024 32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_c_0 : IVec S_ 32 := constantI S_ 32 0#32
  let main_v4 : IVec S32x1024 32 := broadcastInDim S32x1024 ![] bcast_S_S32x1024 main_c_0
  let main_v5 : IVec S32x1024 1 := cmpi .sge main_arg1 main_v4
  let main_c_1 : IVec S_ 32 := constantI S_ 32 1024#32
  let main_v6 : IVec S32x1024 32 := broadcastInDim S32x1024 ![] bcast_S_S32x1024 main_c_1
  let main_v7 : IVec S32x1024 1 := cmpi .slt main_arg1 main_v6
  let main_v8 : IVec S32x1024 1 := andi main_v5 main_v7
  let main_c_2 : IVec S_ 1 := constantI S_ 1 1#1
  let main_v9 : IVec S_ 1 := (fun x v => Host.reduce IntOp.andi x v reducesTo_S32x1024_S_d0_1 h_S_) main_v8 main_c_2
  let main_v10 : IVec S_ 1 := andi main_v3 main_v9
  main_v10
-- ==== Kernel.lean ====
abbrev S32x3x512x512 : Shape := ⟨4, ![32, 3, 512, 512]⟩
abbrev S32x1024 : Shape := ⟨2, ![32, 1024]⟩
abbrev S32x3x32x16x32x16 : Shape := ⟨6, ![32, 3, 32, 16, 32, 16]⟩
abbrev S32x32x32x3x16x16 : Shape := ⟨6, ![32, 32, 32, 3, 16, 16]⟩
abbrev S32x1024x768 : Shape := ⟨3, ![32, 1024, 768]⟩
abbrev S32x1x1024 : Shape := ⟨3, ![32, 1, 1024]⟩
abbrev S1x1x1024 : Shape := ⟨3, ![1, 1, 1024]⟩
abbrev S1x1024x768 : Shape := ⟨3, ![1, 1024, 768]⟩
abbrev S1024 : Shape := ⟨1, ![1024]⟩
abbrev S1024x1024 : Shape := ⟨2, ![1024, 1024]⟩
abbrev S1024x1 : Shape := ⟨2, ![1024, 1]⟩
abbrev S1024x768 : Shape := ⟨2, ![1024, 768]⟩

abbrev nBuf : Space → Nat
  | .hbm => 10
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x1024, .i32⟩
  | .hbm, ⟨2, _⟩ => ⟨S32x3x32x16x32x16, .f32⟩
  | .hbm, ⟨3, _⟩ => ⟨S32x32x32x3x16x16, .f32⟩
  | .hbm, ⟨4, _⟩ => ⟨S32x1024x768, .f32⟩
  | .hbm, ⟨5, _⟩ => ⟨S32x1x1024, .i32⟩
  | .hbm, ⟨6, _⟩ => ⟨S32x1024x768, .f32⟩
  | .hbm, ⟨7, _⟩ => ⟨S32x32x32x3x16x16, .f32⟩
  | .hbm, ⟨8, _⟩ => ⟨S32x3x32x16x32x16, .f32⟩
  | .hbm, ⟨9, _⟩ => ⟨S32x3x512x512, .f32⟩
  | .local _ .vmem, ⟨0, _⟩ => ⟨S1x1x1024, .i32⟩
  | .local _ .vmem, ⟨1, _⟩ => ⟨S1x1x1024, .i32⟩
  | .local _ .vmem, ⟨2, _⟩ => ⟨S1x1024x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x3x512x512_S32x3x32x16x32x16 : S32x3x512x512.ShapeCasts S32x3x32x16x32x16
  transposes_S32x3x32x16x32x16_S32x32x32x3x16x16_0_2_4_1_3_5 : S32x3x32x16x32x16.Transposes [0, 2, 4, 1, 3, 5] S32x32x32x3x16x16
  shapeCasts_S32x32x32x3x16x16_S32x1024x768 : S32x32x32x3x16x16.ShapeCasts S32x1024x768
  shapeCasts_S32x1024_S32x1x1024 : S32x1024.ShapeCasts S32x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  iota_S1024x1024_d1_w32 : S1024x1024.Iotas .tc 32 [1]
  shapeCasts_S1024_S1024x1 : S1024.ShapeCasts S1024x1
  broadcasts_S1024x1_S1024x1024 : S1024x1.Broadcasts S1024x1024
  natLt_1_32 : 1 < 32
  bitsLt_bf16_f32 : FTy.bits .bf16 < FTy.bits .f32
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S1x1024x768 : S1024x768.ShapeCasts S1x1024x768
  shapeCasts_S32x1024x768_S32x32x32x3x16x16 : S32x1024x768.ShapeCasts S32x32x32x3x16x16
  transposes_S32x32x32x3x16x16_S32x3x32x16x32x16_0_3_1_4_2_5 : S32x32x32x3x16x16.Transposes [0, 3, 1, 4, 2, 5] S32x3x32x16x32x16
  shapeCasts_S32x3x32x16x32x16_S32x3x512x512 : S32x3x32x16x32x16.ShapeCasts S32x3x512x512
  dot_S1024x1024_S1024x768_S1024x768_1_0_0_1_n_n_wf : DotDims.WF S1024x1024 S1024x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .i32 = 32 ∨ (Rect.block (s := S32x1x1024) S1x1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S32x1024x768.size a
  hwx0_1 : ∀ i : grid0.Coords, EltTy.bits .f32 = 32 ∨ (Rect.block (s := S32x1024x768) S1x1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x768.size a ≤ S32x1024x768.size a
  hwx0_2 : ∀ i : grid0.Coords, EltTy.bits .f32 = 32 ∨ (Rect.block (s := S32x1024x768) S1x1024x768.size (cc0_transform_2 i) (hinb0_2 i)).WholeWords (EltTy.packing .f32)

variable [Facts₀]

def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf

abbrev win0_0 : Pipeline.Window sig grid0 :=
  Pipeline.Window.ofSpec (Memref.whole main_v3) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x1024 : Shape := ⟨2, ![32, 1024]⟩
abbrev S32x3x32x16x32x16 : Shape := ⟨6, ![32, 3, 32, 16, 32, 16]⟩
abbrev S32x32x32x3x16x16 : Shape := ⟨6, ![32, 32, 32, 3, 16, 16]⟩
abbrev S32x1024x768 : Shape := ⟨3, ![32, 1024, 768]⟩
abbrev S32x1024x1 : Shape := ⟨3, ![32, 1024, 1]⟩
abbrev S_ : Shape := ⟨0, ![]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x1024, .i32⟩
  | .hbm, ⟨2, _⟩ => ⟨S32x3x32x16x32x16, .f32⟩
  | .hbm, ⟨3, _⟩ => ⟨S32x32x32x3x16x16, .f32⟩
  | .hbm, ⟨4, _⟩ => ⟨S32x1024x768, .f32⟩
  | .hbm, ⟨5, _⟩ => ⟨S32x1024x1, .i32⟩
  | .hbm, ⟨6, _⟩ => ⟨S_, .i32⟩
  | .hbm, ⟨7, _⟩ => ⟨S32x1024x1, .i32⟩
  | .hbm, ⟨8, _⟩ => ⟨S32x1024x1, .i1⟩
  | .hbm, ⟨9, _⟩ => ⟨S_, .i32⟩
  | .hbm, ⟨10, _⟩ => ⟨S32x1024x1, .i32⟩
  | .hbm, ⟨11, _⟩ => ⟨S32x1024x1, .i32⟩
  | .hbm, ⟨12, _⟩ => ⟨S32x1024x1, .i32⟩
  | .hbm, ⟨13, _⟩ => ⟨S1, .i32⟩
  | .hbm, ⟨14, _⟩ => ⟨S_, .i32⟩
  | .hbm, ⟨15, _⟩ => ⟨S32x1024x1, .i32⟩
  | .hbm, ⟨16, _⟩ => ⟨S32x1024x1, .i1⟩
  | .hbm, ⟨17, _⟩ => ⟨S1x1x1, .i32⟩
  | .hbm, ⟨18, _⟩ => ⟨S32x1024x1, .i32⟩
  | .hbm, ⟨19, _⟩ => ⟨S32x1024x1, .i1⟩
  | .hbm, ⟨20, _⟩ => ⟨S32x1024x1, .i1⟩
  | .hbm, ⟨21, _⟩ => ⟨S_, .i1⟩
  | .hbm, ⟨22, _⟩ => ⟨S32x1024, .i1⟩
  | .hbm, ⟨23, _⟩ => ⟨S32x1024x768, .f32⟩
  | .hbm, ⟨24, _⟩ => ⟨S32x1024x768, .i1⟩
  | .hbm, ⟨25, _⟩ => ⟨S_, .f32⟩
  | .hbm, ⟨26, _⟩ => ⟨S32x1024x768, .f32⟩
  | .hbm, ⟨27, _⟩ => ⟨S32x1024x768, .f32⟩
  | .hbm, ⟨28, _⟩ => ⟨S32x32x32x3x16x16, .f32⟩
  | .hbm, ⟨29, _⟩ => ⟨S32x3x32x16x32x16, .f32⟩
  | .hbm, ⟨30, _⟩ => ⟨S32x3x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩

abbrev nD : Nat := 1
abbrev τ : Topo := Topo.v7x

variable {F : FTy → Type} [FloatOps F]

class Facts₀ : Prop where
  shapeCasts_S32x3x512x512_S32x3x32x16x32x16 : S32x3x512x512.ShapeCasts S32x3x32x16x32x16
  transposes_S32x3x32x16x32x16_S32x32x32x3x16x16_0_2_4_1_3_5 : S32x3x32x16x32x16.Transposes [0, 2, 4, 1, 3, 5] S32x32x32x3x16x16
  shapeCasts_S32x32x32x3x16x16_S32x1024x768 : S32x32x32x3x16x16.ShapeCasts S32x1024x768
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S1_S1x1x1_2 : S1.BroadcastsInDim S1x1x1 (![2] : Fin 1 → Fin S1x1x1.rank)
  bcast_S1x1x1_S32x1024x1_0_1_2 : S1x1x1.BroadcastsInDim S32x1024x1 (![0, 1, 2] : Fin 3 → Fin S32x1024x1.rank)
  reducesTo_S32x1024x1_S32x1024_d2 : S32x1024x1.ReducesTo [2] S32x1024
  h_S_ : 0 < S_.numel
  bcast_S32x1024_S32x1024x768_0_1 : S32x1024.BroadcastsInDim S32x1024x768 (![0, 1] : Fin 2 → Fin S32x1024x768.rank)
  bcast_S_S32x1024x768 : S_.BroadcastsInDim S32x1024x768 (![] : Fin 0 → Fin S32x1024x768.rank)
  shapeCasts_S32x1024x768_S32x32x32x3x16x16 : S32x1024x768.ShapeCasts S32x32x32x3x16x16
  transposes_S32x32x32x3x16x16_S32x3x32x16x32x16_0_3_1_4_2_5 : S32x32x32x3x16x16.Transposes [0, 3, 1, 4, 2, 5] S32x3x32x16x32x16
  shapeCasts_S32x3x32x16x32x16_S32x3x512x512 : S32x3x32x16x32x16.ShapeCasts S32x3x512x512
  gather_S32x1024x768_S32x1024x1_S32x1024x768_2_1_0_0_1_2_11768_wf : GatherDims.WF S32x1024x768 S32x1024x1 S32x1024x768 [2] [1] [0] [1] [0] 2 ![1, 1, 768]

variable [Facts₀]

def gather_S32x1024x768_S32x1024x1_S32x1024x768_2_1_0_0_1_2_11768 : GatherDims S32x1024x768 S32x1024x1 S32x1024x768 where
  offsetDims := [2]
  collapsedSliceDims := [1]
  operandBatchingDims := [0]
  startIndicesBatchingDims := [0]
  startIndexMap := [1]
  indexVectorDim := 2
  sliceSizes := ![1, 1, 768]
  wf := gather_S32x1024x768_S32x1024x1_S32x1024x768_2_1_0_0_1_2_11768_wf

class Facts : Prop extends Facts₀ where

variable [Facts]
-- ==== Proof.Spec.lean ====
/-
  What the patch shuffle computes, as one function of its two arrays, and the pure facts both programs' values rest on.

  The images are cut into 1024 patches of 768 numbers each (a [32, 1024, 768] array `P`), and `perm` gives, per image
  `b` and output slot `j`, the source patch: the result holds `P[b, perm[b, j], c]` at `(b, j, c)`. One program gets
  there by a sum over all source patches `k` of `[k = perm[b, j]] · P[b, k, c]` (a one-hot row times the patch matrix),
  the other by reading row `perm[b, j]` directly. For a word in `[0, 1024)` the two agree on every extended real:
  `0 · x = 0` whatever `x` is, so the sum has one surviving term.
-/
import Idealize.ShloMosaic.PureOps.Ideal
import Idealize.ShloMosaic.Lib.ValueIdx
import Idealize.ShloMosaic.Lib.StableHlo.Predicate

noncomputable section

namespace Cert.Shuffle

open Idealize.ShloMosaic Idealize.ShloMosaic.ValueIdx

/-- The patch array: image, patch, position inside the patch. -/
abbrev Patches : Shape := ⟨3, ![32, 1024, 768]⟩
/-- The table of source patches: image, output slot. -/
abbrev Slots : Shape := ⟨2, ![32, 1024]⟩

/-- The patch a word names (reduced into range, so that it is a patch for every word; for a word in
    `[0, 1024)` it is the word's value). -/
def rowOf (w : BitVec 32) : Fin 1024 := ⟨w.toNat % 1024, Nat.mod_lt _ (by decide)⟩

/-- THE SHUFFLE: slot `j` of image `b` holds source patch `perm[b, j]` of that image. -/
def shuffled {α : Type} (P : Patches.Idx → α) (perm : Slots.Idx → BitVec 32) : Patches.Idx → α :=
  fun i => P (ix3 (i 0) (rowOf (perm (ix2 (i 0) (i 1)))) (i 2))

/-- A word is a patch number: signed, at least 0 and below 1024. -/
def IsRow (w : BitVec 32) : Prop := IntOp.cmpi .sge w 0#32 = 1#1 ∧ IntOp.cmpi .slt w 1024#32 = 1#1

/-- Such a word's unsigned value is below 1024. -/
theorem IsRow.toNat_lt {w : BitVec 32} (h : IsRow w) : w.toNat < 1024 := by
  obtain ⟨h0, h1⟩ := h
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- Its signed value is its unsigned value. -/
theorem IsRow.toInt_eq {w : BitVec 32} (h : IsRow w) : w.toInt = w.toNat :=
  StableHlo.Predicate.toInt_eq_toNat_of_lt (by have := h.toNat_lt; omega)

/-- It is the word of its patch number. -/
theorem IsRow.eq_ofNat {w : BitVec 32} (h : IsRow w) : w = BitVec.ofNat 32 (rowOf w).val := by
  apply BitVec.eq_of_toNat_eq
  have := h.toNat_lt
  simp only [rowOf, BitVec.toNat_ofNat]
  omega

theorem IsRow.rowOf_val {w : BitVec 32} (h : IsRow w) : (rowOf w).val = w.toNat := by
  have := h.toNat_lt
  simp only [rowOf]; omega

/-- Two patch numbers name the same word only if they are equal. -/
theorem ofNat_eq_iff (k p : Fin 1024) : BitVec.ofNat 32 k.val = BitVec.ofNat 32 p.val ↔ k = p := by
  constructor
  · intro h
    have := congrArg BitVec.toNat h
    simp only [BitVec.toNat_ofNat] at this
    have hk := k.isLt; have hp := p.isLt
    exact Fin.ext (by omega)
  · rintro rfl; rfl

/-- THE ONE-HOT SUM: a row that is 1 at `p` and 0 elsewhere, times a column, summed, is the column's entry at `p` —
    on the extended reals too, where `0 · x = 0` for infinite `x` as well. -/
theorem onehot_sum (p : Fin 1024) (g f : Fin 1024 → EReal) (hg : ∀ k, g k = if k = p then 1 else 0) :
    ∑ k, g k * f k = f p := by
  rw [Finset.sum_eq_single p (fun k _ hk => by rw [hg, if_neg hk, zero_mul]) (fun h => absurd (Finset.mem_univ p) h),
    hg, if_pos rfl, one_mul]

/-- A fold of `and` over ones, from one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

end Cert.Shuffle

end
-- ==== Proof.Payload.lean ====
/-
  What the kernel body stores, read at one element. The body builds, from the 1024 source-patch words of its image, the
  [1024, 1024] matrix whose row `j` is 1 in column `perm[j]` and 0 elsewhere, and multiplies it into the image's
  [1024, 768] patch matrix: element `(j, q)` of the product is the sum over `k` of `[k = perm[j]] · P[k, q]`, which for
  a word `perm[j]` in `[0, 1024)` is `P[perm[j], q]`.
-/
import proofs.«430264_j45878840656651_1_alg».proof.Proof.Gen.KernelIdeal.Skeleton
import proofs.«430264_j45878840656651_1_alg».proof.Proof.Spec
import Idealize.ShloMosaic.PureOps.Ideal.Laws
import Idealize.ShloMosaic.Lib.ValueIdx
import Idealize.ShloMosaic.Lib.Pipeline.Value
import Idealize.ShloMosaic.Lib.StableHlo.Predicate

set_option maxRecDepth 16384

noncomputable section

namespace Cert.KernelIdeal.Shuffle

open Cert.KernelIdeal Cert.KernelIdeal.Gen Cert.Shuffle
open Idealize.ShloMosaic Idealize.ShloMosaic.ValueIdx

/-! ## Which operand elements element `(j, q)` of the product reads -/

theorem lhs_0 (i : S1024x768.Idx) (q : dot_S1024x1024_S1024x768_S1024x768_1_0_0_1_n_n.contr.Idx) :
    (dot_S1024x1024_S1024x768_S1024x768_1_0_0_1_n_n.lhsIdx i q 0).val = (i 0).val := by
  unfold DotDims.lhsIdx
  rw [dif_neg (show ¬(0 : Fin S1024x1024.rank) ∈ dot_S1024x1024_S1024x768_S1024x768_1_0_0_1_n_n.lhsBatch by decide),
    dif_pos (show (0 : Fin S1024x1024.rank) ∈ dot_S1024x1024_S1024x768_S1024x768_1_0_0_1_n_n.lhsNonContracting by decide)]
  rfl

theorem lhs_1 (i : S1024x768.Idx) (q : dot_S1024x1024_S1024x768_S1024x768_1_0_0_1_n_n.contr.Idx) :
    (dot_S1024x1024_S1024x768_S1024x768_1_0_0_1_n_n.lhsIdx i q 1).val = (q ⟨0, by decide⟩).val :=
  dot_S1024x1024_S1024x768_S1024x768_1_0_0_1_n_n.lhsIdx_val_of_single rfl i q

theorem rhs_0 (i : S1024x768.Idx) (q : dot_S1024x1024_S1024x768_S1024x768_1_0_0_1_n_n.contr.Idx) :
    (dot_S1024x1024_S1024x768_S1024x768_1_0_0_1_n_n.rhsIdx i q 0).val = (q ⟨0, by decide⟩).val :=
  dot_S1024x1024_S1024x768_S1024x768_1_0_0_1_n_n.rhsIdx_val_of_single rfl i q

theorem rhs_1 (i : S1024x768.Idx) (q : dot_S1024x1024_S1024x768_S1024x768_1_0_0_1_n_n.contr.Idx) :
    (dot_S1024x1024_S1024x768_S1024x768_1_0_0_1_n_n.rhsIdx i q 1).val = (i 1).val := by
  unfold DotDims.rhsIdx
  rw [dif_neg (show ¬(1 : Fin S1024x768.rank) ∈ dot_S1024x1024_S1024x768_S1024x768_1_0_0_1_n_n.rhsBatch by decide),
    dif_pos (show (1 : Fin S1024x768.rank) ∈ dot_S1024x1024_S1024x768_S1024x768_1_0_0_1_n_n.rhsNonContracting by decide)]
  rfl

/-- The product at `(j, q)`: the sum over the 1024 source patches `k` of left `(j, k)` times right `(k, q)`. -/
theorem product_apply (A : FVec Ideal S1024x1024 .bf16) (B : FVec Ideal S1024x768 .bf16) (j : Fin 1024) (q : Fin 768) :
    matmul dot_S1024x1024_S1024x768_S1024x768_1_0_0_1_n_n none A B (constant S1024x768 .f32 0x00000000#32) (ix2 j q)
      = ∑ k : Fin 1024, A (ix2 j k) * B (ix2 k q) := by
  show FloatOps.matmul dot_S1024x1024_S1024x768_S1024x768_1_0_0_1_n_n none A B (constant S1024x768 .f32 0x00000000#32) (ix2 j q) = _
  rw [Ideal.matmul_constant_zero_apply,
    ← Equiv.sum_comp (contrEquiv1 dot_S1024x1024_S1024x768_S1024x768_1_0_0_1_n_n 1024 rfl rfl).symm]
  refine Finset.sum_congr rfl fun k _ => ?_
  have hk := contrEquiv1_symm_val dot_S1024x1024_S1024x768_S1024x768_1_0_0_1_n_n 1024 rfl rfl k
  have el : dot_S1024x1024_S1024x768_S1024x768_1_0_0_1_n_n.lhsIdx (ix2 j q)
      ((contrEquiv1 dot_S1024x1024_S1024x768_S1024x768_1_0_0_1_n_n 1024 rfl rfl).symm k) = ix2 j k :=
    funext fun a => Fin.ext (by
      match a with
      | ⟨0, _⟩ => exact lhs_0 _ _
      | ⟨1, _⟩ => exact (lhs_1 _ _).trans hk)
  have er : dot_S1024x1024_S1024x768_S1024x768_1_0_0_1_n_n.rhsIdx (ix2 j q)
      ((contrEquiv1 dot_S1024x1024_S1024x768_S1024x768_1_0_0_1_n_n 1024 rfl rfl).symm k) = ix2 k q :=
    funext fun a => Fin.ext (by
      match a with
      | ⟨0, _⟩ => exact (rhs_0 _ _).trans hk
      | ⟨1, _⟩ => exact rhs_1 _ _)
  rw [el, er]

/-! ## The one-hot row -/

/-- A compare bit, widened and converted, is the number 1 or 0: here for "source patch `k` is the one named `p`". -/
theorem hot_entry (k p : Fin 1024) :
    FloatOps.sitofp (F := Ideal) .f32 ((IntOp.cmpi .eq (BitVec.ofNat 32 k.val) (BitVec.ofNat 32 p.val)).setWidth 32)
      = if k = p then (1 : EReal) else 0 := by
  by_cases h : k = p
  · subst h
    rw [if_pos rfl, StableHlo.Predicate.cmpi_eq_iff.mpr rfl]
    show (((((1#1 : BitVec 1).setWidth 32).toInt : ℤ) : ℝ) : EReal) = 1
    rw [show ((1#1 : BitVec 1).setWidth 32).toInt = 1 by decide, Int.cast_one, EReal.coe_one]
  · rw [if_neg h, eq_zero_of_ne_one (fun e => h ((ofNat_eq_iff k p).mp (StableHlo.Predicate.cmpi_eq_iff.mp e)))]
    show (((((0#1 : BitVec 1).setWidth 32).toInt : ℤ) : ℝ) : EReal) = 0
    rw [show ((0#1 : BitVec 1).setWidth 32).toInt = 0 by decide, Int.cast_zero, EReal.coe_zero]

/-- Row `j`, column `k` of the matrix the body builds from its image's words: the compare of `k` with word `j`. -/
theorem hot_apply (x0 : Vec Ideal S1x1x1024 .i32) (j k : Fin 1024) :
    (truncf .bf16 (sitofp .f32 (extui 32 (cmpi .eq (iota .tc S1024x1024 32 [1] iota_S1024x1024_d1_w32)
        (broadcastTo S1024x1024 (shapeCast S1024x1 (shapeCast S1024 x0 shapeCasts_S1x1x1024_S1024) shapeCasts_S1024_S1024x1)
          broadcasts_S1024x1_S1024x1024)) natLt_1_32)) bitsLt_bf16_f32 : FVec Ideal S1024x1024 .bf16) (ix2 j k)
      = FloatOps.sitofp (F := Ideal) .f32
          ((IntOp.cmpi .eq (BitVec.ofNat 32 k.val) (x0 (ix3 (0 : Fin 1) (0 : Fin 1) j))).setWidth 32) := by
  have e1 : iota .tc S1024x1024 32 [1] iota_S1024x1024_d1_w32 (ix2 j k) = BitVec.ofNat 32 k.val :=
    iota_single_apply _ _ _ _ _ _
  have e2 : broadcastTo S1024x1024 (shapeCast S1024x1 (shapeCast S1024 x0 shapeCasts_S1x1x1024_S1024) shapeCasts_S1024_S1024x1)
      broadcasts_S1024x1_S1024x1024 (ix2 j k) = x0 (ix3 (0 : Fin 1) (0 : Fin 1) j) := by
    refine (broadcastTo_apply _ _ (ix2 j k) (ix2 j (0 : Fin 1)) (fun a => ?_)).trans ?_
    · match a with
      | ⟨0, _⟩ => rfl
      | ⟨1, _⟩ => rfl
    refine (shapeCast_apply _ _ (ix2 j (0 : Fin 1)) (ix1 j) ?_).trans ?_
    · rw [Shape.rowMajor_val_one, Shape.rowMajor_val_two]
      show j.val = j.val * 1 + 0
      omega
    refine shapeCast_apply _ _ (ix1 j) (ix3 (0 : Fin 1) (0 : Fin 1) j) ?_
    rw [Shape.rowMajor_val_one, Shape.rowMajor_val_three]
    show (0 * 1 + 0) * 1024 + j.val = j.val
    omega
  show FloatOps.sitofp (F := Ideal) .f32 ((IntOp.cmpi .eq (iota .tc S1024x1024 32 [1] iota_S1024x1024_d1_w32 (ix2 j k))
      (broadcastTo S1024x1024 (shapeCast S1024x1 (shapeCast S1024 x0 shapeCasts_S1x1x1024_S1024) shapeCasts_S1024_S1024x1)
        broadcasts_S1024x1_S1024x1024 (ix2 j k))).setWidth 32) = _
  rw [e1, e2]

/-! ## The stored value -/

/-- THE BODY'S STORE AT `(0, j, q)`, for a word `j` that is a patch number: the patch matrix at `(0, word j, q)`. -/
theorem pay_apply (x0 : Vec Ideal S1x1x1024 .i32) (x1 : Vec Ideal S1x1024x768 .f32) (j : Fin 1024) (q : Fin 768)
    (hrow : IsRow (x0 (ix3 (0 : Fin 1) (0 : Fin 1) j))) :
    k0_pay1 (F := Ideal) x0 x1 (ix3 (0 : Fin 1) j q) = x1 (ix3 (0 : Fin 1) (rowOf (x0 (ix3 (0 : Fin 1) (0 : Fin 1) j))) q) := by
  unfold k0_pay1
  refine (shapeCast_apply _ _ (ix3 (0 : Fin 1) j q) (ix2 j q) ?_).trans ?_
  · rw [Shape.rowMajor_val_two, Shape.rowMajor_val_three]
    show j.val * 768 + q.val = (0 * 1024 + j.val) * 768 + q.val
    omega
  rw [product_apply]
  have hB : ∀ k : Fin 1024, (truncf .bf16 (shapeCast S1024x768 x1 shapeCasts_S1x1024x768_S1024x768) bitsLt_bf16_f32
      : FVec Ideal S1024x768 .bf16) (ix2 k q) = x1 (ix3 (0 : Fin 1) k q) := fun k => by
    show shapeCast S1024x768 x1 shapeCasts_S1x1024x768_S1024x768 (ix2 k q) = _
    refine shapeCast_apply _ _ (ix2 k q) (ix3 (0 : Fin 1) k q) ?_
    rw [Shape.rowMajor_val_two, Shape.rowMajor_val_three]
    show (0 * 1024 + k.val) * 768 + q.val = k.val * 768 + q.val
    omega
  simp only [hB]
  refine onehot_sum (rowOf (x0 (ix3 (0 : Fin 1) (0 : Fin 1) j))) _ (fun k => x1 (ix3 (0 : Fin 1) k q)) (fun k => ?_)
  rw [hot_apply]
  conv_lhs => rw [hrow.eq_ofNat]
  exact hot_entry k _

end Cert.KernelIdeal.Shuffle

end
-- ==== Proof.Layout.lean ====
/-
  The two relayouts around the shuffle, each as ONE function: an image batch [32, 3, 512, 512] cut into 16 × 16 patches
  — split the two picture axes into (32 blocks × 16), bring the block axes forward, flatten to [32, 1024, 768] — and the
  way back. Both programs apply exactly these around their shuffle, so the proof never looks inside them: it only
  needs that the same function is applied to equal arrays. The shape facts are arguments, so that the functions do not
  depend on which program's record of them is at hand.
-/
import proofs.«430264_j45878840656651_1_alg».proof.Proof.Spec

noncomputable section

namespace Cert.Shuffle

open Idealize.ShloMosaic

/-- The image batch: image, channel, row, column. -/
abbrev Image : Shape := ⟨4, ![32, 3, 512, 512]⟩
/-- The picture axes split into (block, inside the block). -/
abbrev Split : Shape := ⟨6, ![32, 3, 32, 16, 32, 16]⟩
/-- The block axes brought forward: image, block row, block column, channel, inside row, inside column. -/
abbrev Grouped : Shape := ⟨6, ![32, 32, 32, 3, 16, 16]⟩

/-- Images to patches. -/
def toPatches {α : Type} (h1 : Image.ShapeCasts Split) (h2 : Split.Transposes [0, 2, 4, 1, 3, 5] Grouped)
    (h3 : Grouped.ShapeCasts Patches) (x : Image.Idx → α) : Patches.Idx → α :=
  shapeCast Patches (transpose Grouped [0, 2, 4, 1, 3, 5] (shapeCast Split x h1) h2) h3

/-- Patches back to images. -/
def toImage {α : Type} (h1 : Patches.ShapeCasts Grouped) (h2 : Grouped.Transposes [0, 3, 1, 4, 2, 5] Split)
    (h3 : Split.ShapeCasts Image) (T : Patches.Idx → α) : Image.Idx → α :=
  shapeCast Image (transpose Split [0, 3, 1, 4, 2, 5] (shapeCast Grouped T h1) h2) h3

end Cert.Shuffle

end
-- ==== Proof.KernelValue.lean ====
/-
  What the kernel program leaves in its result, as one function of its arguments.

  The launch has one grid point per image `t`: the point's blocks are image `t`'s 1024 words and image `t`'s patch
  matrix, and it writes image `t`'s block of the output. So the output array is, index by index, the shuffle of the
  patch array by the word array; the host lines before the launch make those two arrays from the arguments (the
  patches by the relayout, the words by a reshape that only inserts a unit axis), and the host lines after it relayout
  the output back into images.
-/
import proofs.«430264_j45878840656651_1_alg».proof.Proof.Gen.KernelIdeal.Frame
import proofs.«430264_j45878840656651_1_alg».proof.Proof.Payload
import proofs.«430264_j45878840656651_1_alg».proof.Proof.Layout
import Idealize.ShloMosaic.Lib.Pipeline.Value
import Idealize.ShloMosaic.Lib.StableHlo.Run

set_option maxRecDepth 16384

noncomputable section

namespace Cert.KernelIdeal.Shuffle

open Cert.KernelIdeal Cert.KernelIdeal.Gen Cert.Shuffle
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The two arrays the launch reads, by their literal types -/

/-- The word array as the launch finds it: image, a unit axis, slot. -/
abbrev words (c : Dev nD) : Vec Ideal S32x1x1024 .i32 := V m c main_v3
/-- The patch array as the launch finds it. -/
abbrev patches (c : Dev nD) : Vec Ideal S32x1024x768 .f32 := V m c main_v2

/-- What the launch leaves in its output array: the patch array shuffled by the words. -/
def outArr (c : Dev nD) : Vec Ideal S32x1024x768 .f32 :=
  fun i => patches m c (ix3 (i 0) (rowOf (words m c (ix3 (i 0) (0 : Fin 1) (i 1)))) (i 2))

/-! ## The blocks of a grid point -/

theorem hz3 : (![0, 0, 0] : Fin 3 → Nat) = fun _ => 0 := funext fun a => by fin_cases a <;> rfl

/-- The grid is the 32 images. -/
def img (t : Fin cfg0.N) : Fin 32 := t.cast N_0

/-- The printed index maps, decided over the grid: every window's block at point `t` is block `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Point `t`'s block of words is image `t`'s words. -/
theorem words_blk (c : Dev nD) (t : Fin cfg0.N) (j : Fin 1024) :
    iblk m c 0 t (ix3 (0 : Fin 1) (0 : Fin 1) j) = words m c (ix3 (img t) (0 : Fin 1) j) := by
  obtain ⟨e0, e1, e2, -⟩ := idx_facts t
  show V m c main_v3 (((cfg0.win 0).blk t).view.emb (ix3 (0 : Fin 1) (0 : Fin 1) j)) = V m c main_v3 (ix3 (img t) (0 : Fin 1) j)
  refine congrArg _ (funext fun a => Fin.ext ?_)
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 1024 + 1 * j.val = j.val; omega

/-- Point `t`'s block of patches is image `t`'s patch matrix. -/
theorem patches_blk (c : Dev nD) (t : Fin cfg0.N) (r : Fin 1024) (q : Fin 768) :
    iblk m c 1 t (ix3 (0 : Fin 1) r q) = patches m c (ix3 (img t) r q) := by
  obtain ⟨-, -, -, e0, e1, e2, -⟩ := idx_facts t
  show V m c main_v2 (((cfg0.win 1).blk t).view.emb (ix3 (0 : Fin 1) r q)) = V m c main_v2 (ix3 (img t) r q)
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * r.val = r.val; omega
  | ⟨2, _⟩ => show win0_1.index t (2 : Fin 3) * 768 + 1 * q.val = q.val; omega

/-- Where element `(0, j, q)` of point `t`'s output block lies in the output array: `(t, j, q)`. -/
theorem out_emb (t : Fin cfg0.N) (j : Fin 1024) (q : Fin 768) :
    ((cfg0.win 2).blk t).view.emb (ix3 (0 : Fin 1) j q) = ix3 (img t) j q := by
  obtain ⟨-, -, -, -, -, -, e0, e1, e2⟩ := idx_facts t
  refine funext fun a => Fin.ext ?_
  match a with
  | ⟨0, _⟩ => show win0_2.index t (0 : Fin 3) * 1 + 1 * 0 = t.val; omega
  | ⟨1, _⟩ => show win0_2.index t (1 : Fin 3) * 1024 + 1 * j.val = j.val; omega
  | ⟨2, _⟩ => show win0_2.index t (2 : Fin 3) * 768 + 1 * q.val = q.val; omega

/-! ## What a point writes back, and the array after the run -/

/-- WHAT POINT `t` WRITES BACK is block `t` of the shuffled array, when every word is a patch number. -/
theorem flushed_eq (c : Dev nD) (hrow : ∀ i, IsRow (words m c i)) (t : Fin cfg0.N) :
    (dats m 0 c).flushed 2 t = ((cfg0.win 2).blk t).view.read (Elt Ideal) (outArr m c) := by
  show (cfg0.win 2).cut (grid0.coords t) ((dats m 0 c).after 2 t) = _
  rw [after0_2]
  unfold out0_2
  rw [View.canon_unit_zero hz3]
  simp only [View.ld_unit_zero (S := S1x1x1024) hz3, View.ld_unit_zero (S := S1x1024x768) hz3]
  funext (y : S1x1024x768.Idx)
  have hy0 : (y 0).val < 1 := (y 0).isLt
  obtain ⟨j, q, rfl⟩ : ∃ (j : Fin 1024) (q : Fin 768), y = ix3 (0 : Fin 1) j q :=
    ⟨y 1, y 2, funext fun a => Fin.ext (by
      match a with
      | ⟨0, _⟩ => show (y 0).val = 0; omega
      | ⟨1, _⟩ => rfl
      | ⟨2, _⟩ => rfl)⟩
  show k0_pay1 (F := Ideal) (iblk m c 0 t) (iblk m c 1 t) (ix3 (0 : Fin 1) j q)
    = outArr m c (((cfg0.win 2).blk t).view.emb (ix3 (0 : Fin 1) j q))
  rw [out_emb]
  refine (pay_apply (iblk m c 0 t) (iblk m c 1 t) j q ?_).trans ?_
  · rw [words_blk]; exact hrow _
  rw [patches_blk, words_blk]
  rfl

/-- An index of the output array is in point `t`'s block iff each coordinate is in the block's range on its axis. -/
theorem mem_blk (t : Fin cfg0.N) (i : S32x1024x768.Idx) :
    i ∈ ((cfg0.win 2).blk t).view.set ↔ ∀ a : Fin 3, win0_2.index t a * S1x1024x768.size a ≤ (i a).val
      ∧ (i a).val < win0_2.index t a * S1x1024x768.size a + S1x1024x768.size a := by
  show i ∈ ((View.whole main_v4).slice (win0_2.rect t)).set ↔ _
  rw [View.set_slice_whole, Rect.mem_set_unit]
  exact Iff.rfl

/-- Every index of the output array is in the block of the point that is its image. -/
theorem cover (i : S32x1024x768.Idx) :
    ∃ t : Fin cfg0.N, (cfg0.win 2).flush t = true ∧ i ∈ ((cfg0.win 2).blk t).view.set := by
  have h0 : (i 0).val < 32 := (i 0).isLt
  have h1 : (i 1).val < 1024 := (i 1).isLt
  have h2 : (i 2).val < 768 := (i 2).isLt
  let t : Fin cfg0.N := (i 0).cast N_0.symm
  obtain ⟨-, -, -, -, -, -, e0, e1, e2⟩ := idx_facts t
  have ht : t.val = (i 0).val := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 768 ≤ (i 2).val ∧ (i 2).val < win0_2.index t (2 : Fin 3) * 768 + 768; omega

/-- THE OUTPUT ARRAY after the run is the shuffled array. -/
theorem final (c : Dev nD) (hrow : ∀ i, IsRow (words m c i)) : (dats m 0 c).arrAt 2 cfg0.N = outArr m c :=
  (dats m 0 c).arrAt_eq_of_cover 2 (outArr m c) (fun t _ => flushed_eq m c hrow t) cover

/-! ## The host lines before and after the launch -/

/-- The patch array is the relayout of the first argument. -/
theorem patches_eq (c : Dev nD) :
    patches m c = toPatches shapeCasts_S32x3x512x512_S32x3x32x16x32x16 transposes_S32x3x32x16x32x16_S32x32x32x3x16x16_0_2_4_1_3_5
      shapeCasts_S32x32x32x3x16x16_S32x1024x768 (m ((c : Thread nD τ).loc main_arg0)) := by
  show StableHlo.after hostOps0 (fun b => m (c, b)) (Proc.devRef .tc main_v2) = _
  after_results
  rfl

/-- The word array is the second argument with a unit axis inserted. -/
theorem words_eq (c : Dev nD) :
    words m c = shapeCast S32x1x1024 (m ((c : Thread nD τ).loc main_arg1)) shapeCasts_S32x1024_S32x1x1024 := by
  show StableHlo.after hostOps0 (fun b => m (c, b)) (Proc.devRef .tc main_v3) = _
  after_results
  rfl

/-- So word `(b, 0, j)` is the second argument at `(b, j)`. -/
theorem words_apply (c : Dev nD) (b : Fin 32) (j : Fin 1024) :
    words m c (ix3 b (0 : Fin 1) j) = m ((c : Thread nD τ).loc main_arg1) (ix2 b j) := by
  rw [words_eq]
  refine shapeCast_apply _ _ (ix3 b (0 : Fin 1) j) (ix2 b j) ?_
  rw [Shape.rowMajor_val_two, Shape.rowMajor_val_three]
  show b.val * 1024 + j.val = (b.val * 1 + 0) * 1024 + j.val
  omega

/-- The launch's output is the shuffle of the relayout of the first argument by the second. -/
theorem outArr_eq (c : Dev nD) :
    outArr m c = shuffled (toPatches shapeCasts_S32x3x512x512_S32x3x32x16x32x16 transposes_S32x3x32x16x32x16_S32x32x32x3x16x16_0_2_4_1_3_5
      shapeCasts_S32x32x32x3x16x16_S32x1024x768 (m ((c : Thread nD τ).loc main_arg0))) (m ((c : Thread nD τ).loc main_arg1)) := by
  funext i
  have e : words m c (ix3 (i 0) (0 : Fin 1) (i 1)) = m ((c : Thread nD τ).loc main_arg1) (ix2 (i 0) (i 1)) :=
    words_apply m c (i 0) (i 1)
  exact (congrArg (fun w => patches m c (ix3 (i 0) (rowOf w) (i 2))) e).trans (congrFun (patches_eq m c) _)

/-- The program's result is the relayout, back to images, of the launch's output array. -/
theorem tail_eq (c : Dev nD) :
    Pipeline.afterTail₀ cfgs (dats m) 0 (V0 m) [hostOps1] c main_v7
      = toImage shapeCasts_S32x1024x768_S32x32x32x3x16x16 transposes_S32x32x32x3x16x16_S32x3x32x16x32x16_0_3_1_4_2_5
          shapeCasts_S32x3x32x16x32x16_S32x3x512x512 ((dats m 0 c).arrAt 2 cfg0.N) := by
  unfold Pipeline.afterTail₀
  show StableHlo.after hostOps1 _ (Proc.devRef .tc main_v7) = _
  after_results
  exact congrArg (toImage shapeCasts_S32x1024x768_S32x32x32x3x16x16 transposes_S32x32x32x3x16x16_S32x3x32x16x32x16_0_3_1_4_2_5
    shapeCasts_S32x3x32x16x32x16_S32x3x512x512)
    (Pipeline.withArrays_arr spec0 launch0.win.arr_inj c (V0 m c) (fun w => (dats m 0 c).arrAt w cfg0.N) 2)

/-! ## The run, read -/

/-- THE KERNEL PROGRAM'S RUN, when every word of the second argument is a patch number: it ends with the shuffled
    images in its result and its arguments unchanged. -/
theorem run (hperm : ∀ (c : Dev nD) (i : S32x1024.Idx), IsRow (m ((c : Thread nD τ).loc main_arg1) i)) :
    θ_run defs (onTc (τ := τ) (main (F := Ideal))) ⟨m, fun _ => 0, ρ⟩ fun r => ∀ c : Dev nD,
      r.2.mem ((c.tc : Thread nD τ).loc main_v7)
        = toImage shapeCasts_S32x1024x768_S32x32x32x3x16x16 transposes_S32x32x32x3x16x16_S32x3x32x16x32x16_0_3_1_4_2_5
            shapeCasts_S32x3x32x16x32x16_S32x3x512x512
            (shuffled (toPatches shapeCasts_S32x3x512x512_S32x3x32x16x32x16 transposes_S32x3x32x16x32x16_S32x32x32x3x16x16_0_2_4_1_3_5
              shapeCasts_S32x32x32x3x16x16_S32x1024x768 (m ((c.tc : Thread nD τ).loc main_arg0))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have hrow : ∀ (c : Dev nD) (i : S32x1x1024.Idx), IsRow (words m c i) := fun c i => by
    have h1 : (i 1).val < 1 := (i 1).isLt
    have e : i = ix3 (i 0) (0 : Fin 1) (i 2) := funext fun a => Fin.ext (by
      match a with
      | ⟨0, _⟩ => rfl
      | ⟨1, _⟩ => show (i 1).val = 0; omega
      | ⟨2, _⟩ => rfl)
    have key : IsRow (words m c (ix3 (i 0) (0 : Fin 1) (i 2))) := by
      rw [words_apply m c (i 0) (i 2)]; exact hperm c _
    exact e ▸ key
  refine (θ_run defs _ _).mono (fun r h c => ⟨?_, ?_, ?_⟩) (run_main m ρ)
  · rw [(h c).2 main_v7 (Pipeline.mem_restRefs_of main_v7 (by decide) (by decide)), tail_eq, final m c (hrow c), outArr_eq]
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Shuffle

end
-- ==== Proof.Gather.lean ====
/-
  Reading one row per slot out of the patch array: the gather whose start ids name, for image `b` and slot `j`, a row
  of image `b`'s [1024, 768] patch matrix (the image axis is a batching axis on both operands, the row axis is
  collapsed, the 768 positions are the offset axis). At `(b, j, c)` it reads the array at `(b, r, c)`, `r` the id at
  `(b, j, 0)` read signed and clamped into `[0, 1023]`.
-/
import Idealize.ShloMosaic.PureOps
import Idealize.ShloMosaic.Lib.ValueIdx
import proofs.«430264_j45878840656651_1_alg».proof.Proof.Spec

noncomputable section

namespace Cert.Shuffle

open Idealize.ShloMosaic Idealize.ShloMosaic.ValueIdx

/-- The start ids: image, slot, one component. -/
abbrev Ids : Shape := ⟨3, ![32, 1024, 1]⟩

/-- The dimension numbers of that gather, its well-formedness whatever proof a program carries for it. -/
abbrev rowDims (wf : GatherDims.WF Patches Ids Patches [2] [1] [0] [1] [0] 2 ![1, 1, 768]) : GatherDims Patches Ids Patches where
  offsetDims := [2]
  collapsedSliceDims := [1]
  operandBatchingDims := [0]
  startIndicesBatchingDims := [0]
  startIndexMap := [1]
  indexVectorDim := 2
  sliceSizes := ![1, 1, 768]
  wf := wf

/-- Where result index `(b, j, c)` finds its start id: `(b, j, 0)`. -/
abbrev idAt (y : Patches.Idx) : Ids.Idx := ix3 (y 0) (y 1) (0 : Fin 1)

/-- THE GATHER READ AT `(b, j, c)`: axis by axis the operand index is (clamped start) + (batching coordinate) + (offset
    coordinate); on the image axis only the batching coordinate `b` is there, on the row axis only the clamped start, on
    the position axis only the offset `c`. -/
theorem gather_rows {α : Type} (wf : GatherDims.WF Patches Ids Patches [2] [1] [0] [1] [0] 2 ![1, 1, 768])
    (x : Patches.Idx → α) (idx : IVec Ids 32) (y : Patches.Idx) :
    Host.gather (rowDims wf) x idx y = x (ix3 (y 0) ⟨min (idx (idAt y)).toInt.toNat 1023, by omega⟩ (y 2)) := by
  unfold Host.gather
  congr 1
  funext a
  refine Fin.ext ?_
  show (rowDims wf).start y idx a + (rowDims wf).batchCoord y a + (rowDims wf).offCoord y a = _
  match a with
  | ⟨0, _⟩ =>
    have hb : (⟨0, by decide⟩ : Fin Patches.rank) ∈ (rowDims wf).operandBatchingDims := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.zero_add, Nat.add_zero]
    unfold GatherDims.siCoord
    simp only [Fin.val_cast]
    rfl
  | ⟨1, _⟩ =>
    have hnb : (⟨1, by decide⟩ : Fin Patches.rank) ∉ (rowDims wf).operandBatchingDims :=
      fun h => absurd (List.mem_singleton.mp h) (by decide)
    have hc : (⟨1, by decide⟩ : Fin Patches.rank) ∈ (rowDims wf).collapsedSliceDims := List.mem_singleton.mpr rfl
    have hm : (⟨1, by decide⟩ : Fin Patches.rank) ∈ (rowDims wf).startIndexMap := List.mem_singleton.mpr rfl
    rw [GatherDims.batchCoord_eq_zero _ _ _ hnb,
      GatherDims.offCoord_eq_zero _ _ _ (fun h => ((GatherDims.mem_sKept _ _).mp h).1 hc)]
    unfold GatherDims.start
    rw [dif_pos hm]
    have hsi : (rowDims wf).siIdx y ⟨List.idxOf (⟨1, by decide⟩ : Fin Patches.rank) (rowDims wf).startIndexMap,
        List.idxOf_lt_length_iff.2 hm⟩ = idAt y := by
      funext b; refine Fin.ext ?_
      match b with
      | ⟨0, _⟩ => rfl
      | ⟨1, _⟩ => rfl
      | ⟨2, _⟩ => rfl
    rw [hsi]
    rfl
  | ⟨2, _⟩ =>
    have hnb : (⟨2, by decide⟩ : Fin Patches.rank) ∉ (rowDims wf).operandBatchingDims :=
      fun h => absurd (List.mem_singleton.mp h) (by decide)
    have hnm : (⟨2, by decide⟩ : Fin Patches.rank) ∉ (rowDims wf).startIndexMap :=
      fun h => absurd (List.mem_singleton.mp h) (by decide)
    have hnc : (⟨2, by decide⟩ : Fin Patches.rank) ∉ (rowDims wf).collapsedSliceDims :=
      fun h => absurd (List.mem_singleton.mp h) (by decide)
    have hk : (⟨2, by decide⟩ : Fin Patches.rank) ∈ (rowDims wf).sKept := (GatherDims.mem_sKept _ _).mpr ⟨hnc, hnb⟩
    rw [GatherDims.batchCoord_eq_zero _ _ _ hnb]
    unfold GatherDims.start GatherDims.offCoord
    rw [dif_neg hnm, dif_pos hk]
    simp only [Nat.zero_add, Nat.add_zero]
    rfl

/-- For a start id that is a patch number the clamp does nothing: the gather reads row `rowOf id`. -/
theorem gather_rows_of_isRow {α : Type} (wf : GatherDims.WF Patches Ids Patches [2] [1] [0] [1] [0] 2 ![1, 1, 768])
    (x : Patches.Idx → α) (idx : IVec Ids 32) (y : Patches.Idx) (h : IsRow (idx (idAt y))) :
    Host.gather (rowDims wf) x idx y = x (ix3 (y 0) (rowOf (idx (idAt y))) (y 2)) := by
  rw [gather_rows]
  congr 2
  apply Fin.ext
  show min (idx (idAt y)).toInt.toNat 1023 = (rowOf (idx (idAt y))).val
  have h1 := h.toNat_lt
  rw [h.toInt_eq, h.rowOf_val, Int.toNat_natCast]
  omega

end Cert.Shuffle

end
-- ==== Proof.RefValue.lean ====
/-
  What the reference program computes, as the same function of its arguments.

  The reference takes row `perm[b, j]` of image `b`'s patch matrix with jnp's `take_along_axis`: a negative id is
  first moved up by 1024, ids outside `[0, 1023]` after that are masked to a not-a-number fill, and the gather itself
  clamps. For an id that is a patch number none of the three does anything: the id is not negative, the mask is set,
  the clamp is the identity. So the middle array is the shuffle, and around it are the same two relayouts.
-/
import proofs.«430264_j45878840656651_1_alg».proof.Proof.RefRead
import proofs.«430264_j45878840656651_1_alg».proof.Proof.Gather
import proofs.«430264_j45878840656651_1_alg».proof.Proof.Layout
import Idealize.ShloMosaic.PureOps.Reduce
import Idealize.ShloMosaic.Lib.ValueIdx

set_option maxRecDepth 16384

noncomputable section

namespace Cert.Shuffle

open Idealize.ShloMosaic

/-- A patch number is not negative: the signed compare with 0 is clear. -/
theorem IsRow.not_neg {w : BitVec 32} (h : IsRow w) : IntOp.cmpi .slt w 0#32 = 0#1 := by
  have h1 := h.toInt_eq
  unfold IntOp.cmpi
  show BitVec.ofBool (w.slt 0#32) = 0#1
  have : w.slt 0#32 = false := by
    simp only [BitVec.slt, decide_eq_false_iff_not, not_lt]
    rw [h1]; simp
  rw [this]; rfl

/-- A patch number is at most 1023. -/
theorem IsRow.le_max {w : BitVec 32} (h : IsRow w) : IntOp.cmpi .sle w 1023#32 = 1#1 := by
  have h1 := h.toInt_eq
  have h2 := h.toNat_lt
  unfold IntOp.cmpi
  show BitVec.ofBool (w.sle 1023#32) = 1#1
  have : w.sle 1023#32 = true := by
    simp only [BitVec.sle, decide_eq_true_eq]
    rw [h1, show (1023#32 : BitVec 32).toInt = 1023 by decide]
    omega
  rw [this]; rfl

end Cert.Shuffle

namespace Cert.ReferenceIdeal.Shuffle

open Cert.ReferenceIdeal Cert.ReferenceIdeal.Gen Cert.ReferenceIdeal.Read Cert.Shuffle
open Idealize.ShloMosaic Idealize.ShloMosaic.ValueIdx

variable (x0 : (⟨S32x3x512x512, .f32⟩ : BufTy).Contents (Elt Ideal)) (x1 : (⟨S32x1024, .i32⟩ : BufTy).Contents (Elt Ideal))

/-- The id the gather is given at `(b, j, 0)` is `perm[b, j]` itself when that is a patch number (not negative, so
    not moved). -/
theorem id_apply (hperm : ∀ i, IsRow (x1 i)) (i' : S32x1024x1.Idx) :
    val_main_call0_v4 (F := Ideal) x1 i' = x1 (idx_main_v3 i') := by
  rw [val_main_call0_v4_apply, val_main_call0_v1_apply, val_main_v3_apply, val_main_call0_v0_apply,
    val_main_call0_c_apply, (hperm _).not_neg]
  exact select_zero _ _

/-- The range mask is set everywhere. -/
theorem mask_apply (hperm : ∀ i, IsRow (x1 i)) (i : S32x1024x768.Idx) :
    val_main_call0_v13 (F := Ideal) x1 i = 1#1 := by
  rw [val_main_call0_v13_apply]
  unfold val_main_call0_v11
  rw [Host.reduce_eq_foldl]
  show List.foldl _ (1#1) _ = 1#1
  refine foldl_andi_ones _ (fun i' => ?_) _
  rw [val_main_call0_v10_apply, val_main_call0_v6_apply, val_main_call0_v9_apply, id_apply x1 hperm,
    val_main_call0_v5_apply, val_main_call0_c_2_apply, val_main_call0_v8_apply, val_main_call0_v7_apply,
    val_main_call0_c_1_apply, (hperm _).1, (hperm _).le_max]
  rfl

/-- THE REFERENCE'S MIDDLE ARRAY is the shuffle of its patch array by the second argument. -/
theorem mid_eq (hperm : ∀ i, IsRow (x1 i)) :
    val_main_v4 (F := Ideal) x0 x1 = shuffled (val_main_v2 (F := Ideal) x0) x1 := by
  funext i
  rw [val_main_v4_apply, mask_apply x1 hperm, select_one]
  unfold val_main_call0_v12
  have hid : val_main_call0_v4 (F := Ideal) x1 (idAt i) = x1 (ix2 (i 0) (i 1)) :=
    (id_apply x1 hperm (idAt i)).trans (congrArg x1 (funext fun a => Fin.ext (by
      match a with
      | ⟨0, _⟩ => rfl
      | ⟨1, _⟩ => rfl)))
  refine (gather_rows_of_isRow gather_S32x1024x768_S32x1024x1_S32x1024x768_2_1_0_0_1_2_11768_wf
    (val_main_v2 (F := Ideal) x0) (val_main_call0_v4 (F := Ideal) x1) i (by rw [hid]; exact hperm _)).trans ?_
  rw [hid]
  rfl

/-- THE REFERENCE'S RESULT: the relayout back of the shuffle of the relayout of the first argument. -/
theorem result_eq (hperm : ∀ i, IsRow (x1 i)) :
    val_main_v7 (F := Ideal) x0 x1
      = toImage shapeCasts_S32x1024x768_S32x32x32x3x16x16 transposes_S32x32x32x3x16x16_S32x3x32x16x32x16_0_3_1_4_2_5
          shapeCasts_S32x3x32x16x32x16_S32x3x512x512
          (shuffled (toPatches shapeCasts_S32x3x512x512_S32x3x32x16x32x16 transposes_S32x3x32x16x32x16_S32x32x32x3x16x16_0_2_4_1_3_5
            shapeCasts_S32x32x32x3x16x16_S32x1024x768 x0) x1) := by
  show toImage shapeCasts_S32x1024x768_S32x32x32x3x16x16 transposes_S32x32x32x3x16x16_S32x3x32x16x32x16_0_3_1_4_2_5
      shapeCasts_S32x3x32x16x32x16_S32x3x512x512 (val_main_v4 (F := Ideal) x0 x1) = _
  rw [mid_eq x0 x1 hperm]
  rfl

end Cert.ReferenceIdeal.Shuffle

end
-- ==== Proof.PreRows.lean ====
/-
  The precondition, read back: it says (beside the finiteness of the images, which this proof never needs) that every
  word of the second argument is at least 0 and below 1024, signed — that is, a patch number.
-/
import proofs.«430264_j45878840656651_1_alg».proof.Pre_finite_inputs
import proofs.«430264_j45878840656651_1_alg».proof.Proof.Gen.Pre_finite_inputs
import proofs.«430264_j45878840656651_1_alg».proof.Proof.Spec
import Idealize.ShloMosaic.Lib.ReduceAll
import Idealize.ShloMosaic.Lib.ValueIdx

noncomputable section

namespace Cert.Shuffle

open Idealize.ShloMosaic

instance : Subsingleton Cert.Pre_finite_inputs.S_.Idx := ⟨fun a b => funext fun d => d.elim0⟩

/-- If the printed precondition is all ones on `(images, words)`, every word is a patch number: the predicate is the
    `and` of two all-reductions, the second over the elementwise `and` of `word ≥ 0` and `word < 1024`. -/
theorem rows_of_pre {F : FTy → Type} [FloatOps F] (a0 : FVec F Cert.Pre_finite_inputs.S32x3x512x512 .f32)
    (a1 : IVec Cert.Pre_finite_inputs.S32x1024 32)
    (h : Cert.Pre_finite_inputs.fn (F := F) a0 a1 = fun _ => 1#1) (i : Cert.Pre_finite_inputs.S32x1024.Idx) :
    IsRow (a1 i) := by
  have e := congrFun h ValueIdx.ix0
  dsimp only [Cert.Pre_finite_inputs.fn] at e
  obtain ⟨-, e2⟩ := IntOp.andi_eq_one.1 e
  have e3 := Host.reduce_andi_all _ _ _ _ _ e2 i
  obtain ⟨ha, hb⟩ := IntOp.andi_eq_one.1 e3
  exact ⟨ha, hb⟩

end Cert.Shuffle

end
-- ==== Proof.lean ====
/-
  Shuffling the 16 × 16 patches of a batch of images by a per-image table: the kernel program against jnp's
  `take_along_axis`.

  Both programs cut each [3, 512, 512] image into 1024 patches of 768 numbers, reorder the patches of image `b` so that
  slot `j` holds patch `perm[b, j]`, and put the image back together. The kernel program reorders by a matrix product:
  per image, the [1024, 1024] matrix with a 1 at `(j, perm[b, j])` times the [1024, 768] patch matrix, whose element
  `(j, c)` is the sum over `k` of `[k = perm[b, j]] · P[b, k, c]`. The reference reads row `perm[b, j]` directly. They
  agree exactly when `perm[b, j]` is a patch number, `0 ≤ perm[b, j] < 1024`, which is the stated precondition on the
  table (outside it the reference wraps a negative id and fills the rest with not-a-number, while the product gives 0);
  no finiteness of the images is used, since `0 · x = 0` for every extended real `x`.

  The modules: `Spec` (the shuffle as one function, the one-hot sum, words that are patch numbers), `Layout` (the two
  relayouts, each one function), `Gather` (the reference's row gather read at an index), `Payload` (the kernel body's
  store read at an index), `KernelValue` (the kernel program's result), `RefValue` (the reference's result),
  `PreRows` (the precondition read back). Here: the three frames, and the two results are one function of equal arguments.
-/
import proofs.«430264_j45878840656651_1_alg».proof.Defs
import proofs.«430264_j45878840656651_1_alg».proof.Proof.Gen.Kernel
import proofs.«430264_j45878840656651_1_alg».proof.Proof.Gen.Kernel.Frame
import proofs.«430264_j45878840656651_1_alg».proof.Proof.Gen.KernelIdeal
import proofs.«430264_j45878840656651_1_alg».proof.Proof.Gen.KernelIdeal.Frame
import proofs.«430264_j45878840656651_1_alg».proof.Proof.Gen.ReferenceIdeal
import proofs.«430264_j45878840656651_1_alg».proof.Proof.Gen.Pre_finite_inputs
import proofs.«430264_j45878840656651_1_alg».proof.Proof.KernelValue
import proofs.«430264_j45878840656651_1_alg».proof.Proof.RefValue
import proofs.«430264_j45878840656651_1_alg».proof.Proof.PreRows
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference has no launch: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the images and the table, with every table word a patch number, both programs end with
    the images whose patches are shuffled by the table: the kernel program's result (the launch's output array read
    off its frame run) and the reference's (its run read back) are the same function of the same arguments. -/
theorem algebraic : Cert.algebraic_KernelIdeal_ReferenceIdeal := by
  intro m ρ m' ρ' hpre hagree
  have hperm : ∀ (c : Dev Cert.KernelIdeal.nD) (i : Cert.KernelIdeal.S32x1024.Idx),
      Cert.Shuffle.IsRow (m ((c.tc : Thread Cert.KernelIdeal.nD Cert.KernelIdeal.τ).loc Cert.KernelIdeal.main_arg1) i) :=
    fun c i => Cert.Shuffle.rows_of_pre _ _ (hpre c) i
  refine ⟨_, Cert.KernelIdeal.Shuffle.run m ρ hperm, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v7_eq _ _).trans ?_
  rw [(hagree c).1, (hagree c).2]
  exact Cert.ReferenceIdeal.Shuffle.result_eq _ _ (hperm c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
